-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : FVec F S256x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S3200x128 : Shape := ⟨2, ![3200, 128]⟩
abbrev S1x128 : Shape := ⟨2, ![1, 128]⟩

abbrev nBuf : Space → Nat
  | .hbm => 19
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S800000x128, .f32⟩
  | .local _ .vmem, ⟨0, _⟩ => ⟨S3200x128, .f32⟩
  | .local _ .vmem, ⟨1, _⟩ => ⟨S3200x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S3200x128, .f32⟩
  | .local _ .vmem, ⟨7, _⟩ => ⟨S3200x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x128.size a ≤ S800000x128.size a
  hwx0_5 : ∀ i : grid0.Coords, EltTy.bits .f32 = 32 ∨ (Rect.block (s := S800000x128) S3200x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf

abbrev win0_0 : Pipeline.Window sig grid0 :=
  Pipeline.Window.ofSpec (Memref.whole main_v6) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S3200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x256, .f32⟩
  | .hbm, ⟨16, _⟩ => ⟨S800000x128, .f32⟩
  | .hbm, ⟨17, _⟩ => ⟨S1x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S800000x128, .f32⟩
  | .hbm, ⟨22, _⟩ => ⟨S800000x128, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.MlpSpec.lean ====
/-
  The two-layer perceptron on gathered rows, as plain sums over coordinates, and the one algebraic law that
  joins the two programs.

  A row g of 128 gathered features goes through h = max (g · W + b₁) 0 and then y = h · W₂ + b₂.
  The kernel multiplies g by the FOLDED weight W = W₁[0:128] + W₁[128:256]; the reference multiplies the
  doubled row [g, g] (256 entries) by the whole W₁.  The two first layers agree because
      ∑_{l < 256} [g, g]_l · A_l  =  ∑_{l < 128} g_l · A_l + ∑_{l < 128} g_l · A_{128 + l}
                                 =  ∑_{l < 128} g_l · (A_l + A_{128 + l}),
  the first step a split of the index range, the second distributivity, which on the extended reals holds
  when the factors are real numbers (it fails at infinities: (-1) · (∞ + (-∞)) against (-1)·∞ + (-1)·(-∞)).
-/
import Idealize.ShloMosaic.PureOps.Ideal
import Idealize.ShloMosaic.Lib.ValueIdx

noncomputable section

open scoped BigOperators

namespace Cert.MlpSpec

/-- An extended real that is a real number. -/
def IsReal (x : EReal) : Prop := ∃ r : ℝ, x = (r : EReal)

/-- Distributivity on the extended reals, at real factors. -/
theorem mul_add_of_isReal {x y z : EReal} (hx : IsReal x) (hy : IsReal y) (hz : IsReal z) :
    x * (y + z) = x * y + x * z := by
  obtain ⟨a, rfl⟩ := hx
  obtain ⟨b, rfl⟩ := hy
  obtain ⟨c, rfl⟩ := hz
  rw [← EReal.coe_add, ← EReal.coe_mul, ← EReal.coe_mul, ← EReal.coe_mul, ← EReal.coe_add, mul_add]

/-- Position l of the low half of a doubled row of 256 entries. -/
abbrev lo (l : Fin 128) : Fin 256 := ⟨l.val, by omega⟩
/-- Position 128 + l, the same entry in the high half. -/
abbrev hi (l : Fin 128) : Fin 256 := ⟨128 + l.val, by omega⟩

/-- The doubled row against a whole first-layer weight column is the row against the folded column:
    cat is g on the low half of its 256 positions and g again on the high half. -/
theorem sum_doubled_row (g : Fin 128 → EReal) (cat A : Fin 256 → EReal)
    (hlo : ∀ l : Fin 128, cat (lo l) = g l) (hhi : ∀ l : Fin 128, cat (hi l) = g l)
    (hg : ∀ l, IsReal (g l)) (hA : ∀ l, IsReal (A l)) :
    ∑ l : Fin 256, cat l * A l = ∑ l : Fin 128, g l * (A (lo l) + A (hi l)) := by
  refine (Fin.sum_univ_add (a := 128) (b := 128) (fun l : Fin (128 + 128) => cat l * A l)).trans ?_
  rw [← Finset.sum_add_distrib]
  refine Finset.sum_congr rfl fun l _ => ?_
  show cat (lo l) * A (lo l) + cat (hi l) * A (hi l) = _
  rw [hlo, hhi, mul_add_of_isReal (hg l) (hA _) (hA _)]

/-- The hidden layer at column k: max (g · W[:, k] + b₁[k]) z, with z the programs' zero. -/
def hiddenLayer (z : EReal) (g : Fin 128 → EReal) (W : Fin 128 → Fin 128 → EReal) (b1 : Fin 128 → EReal) (k : Fin 128) : EReal :=
  max (∑ l : Fin 128, g l * W l k + b1 k) z

/-- The output at column j: h · W₂[:, j] + b₂[j]. -/
def outLayer (h : Fin 128 → EReal) (W2 : Fin 128 → Fin 128 → EReal) (b2 : Fin 128 → EReal) (j : Fin 128) : EReal :=
  ∑ k : Fin 128, h k * W2 k j + b2 j

open Idealize.ShloMosaic Idealize.ShloMosaic.ValueIdx in
/-- The folded first weight: rows l and 128 + l of the [256, 128] weight added, a [128, 128] matrix. -/
def foldedWeight (W1 : (⟨2, ![256, 128]⟩ : Shape).Idx → EReal) : (⟨2, ![128, 128]⟩ : Shape).Idx → EReal :=
  fun i => W1 (ix2 (lo (i 0)) (i 1)) + W1 (ix2 (hi (i 0)) (i 1))

open Idealize.ShloMosaic Idealize.ShloMosaic.ValueIdx in
/-- The whole result: entry (r, j) is the perceptron's output at column j on row r of the gathered rows g,
    with first weight W (already folded), biases b1 and b2, second weight W2. -/
def mlpArray (z : EReal) (g : (⟨2, ![800000, 128]⟩ : Shape).Idx → EReal) (W : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![800000, 128]⟩ : Shape).Idx → EReal :=
  fun i => outLayer (hiddenLayer z (fun l => g (ix2 (n0 := 800000) (i 0) l)) (fun l k => W (ix2 l k)) (fun k => b1 (ix1 k)))
    (fun k j => W2 (ix2 k j)) (fun j => b2 (ix1 j)) (i 1)

end Cert.MlpSpec

end
-- ==== Proof.RefValue.lean ====
/-
  The reference, read at one output entry.

  At row r and column j the reference's result is the perceptron's output on the gathered row
  g = x[idx[r]]: the doubled row [g, g] against the whole first weight, plus the first bias, clipped below
  at zero, against the second weight, plus the second bias.  The generated read-at-an-index lemmas open
  every stage but two, the gather (kept whole here: both programs gather the same rows by the same
  operations) and the concatenation, which is read below: positions l and 128 + l of the doubled row are
  both entry l of the gathered row.  The doubled row's product is then folded onto the 128 gathered entries
  by the law of the specification, which needs the gathered entries and the first weight's entries real.
-/
import proofs.«175309_j64879775973998_1_alg».proof.Proof.Gen.ReferenceIdeal.Read
import proofs.«175309_j64879775973998_1_alg».proof.Proof.MlpSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.MlpSpec

variable (x0 : (⟨S50000x128, .f32⟩ : BufTy).Contents (Elt Ideal)) (x1 : (⟨S800000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-! ## The operand indices of each stage, by coordinates -/

theorem lhs_second (r : Fin 800000) (j k : Fin 128) : lidx_main_v13 (ix2 r j) k = ix2 r k :=
  funext fun a => Fin.ext (by match a with | ⟨0, _⟩ => rfl | ⟨1, _⟩ => rfl)
theorem rhs_second (r : Fin 800000) (j k : Fin 128) : ridx_main_v13 (ix2 r j) k = ix2 k j :=
  funext fun a => Fin.ext (by match a with | ⟨0, _⟩ => rfl | ⟨1, _⟩ => rfl)
theorem lhs_first (r : Fin 800000) (k : Fin 128) (l : Fin 256) : lidx_main_v8 (ix2 r k) l = ix2 r l :=
  funext fun a => Fin.ext (by match a with | ⟨0, _⟩ => rfl | ⟨1, _⟩ => rfl)
theorem rhs_first (r : Fin 800000) (k : Fin 128) (l : Fin 256) : ridx_main_v8 (ix2 r k) l = ix2 l k :=
  funext fun a => Fin.ext (by match a with | ⟨0, _⟩ => rfl | ⟨1, _⟩ => rfl)
theorem bias_second (r : Fin 800000) (j : Fin 128) : idx_main_v14 (idx_main_v15 (ix2 r j)) = ix1 j :=
  funext fun a => Fin.ext (by match a with | ⟨0, _⟩ => rfl)
theorem bias_first (r : Fin 800000) (j : Fin 128) : idx_main_v9 (idx_main_v10 (ix2 r j)) = ix1 j :=
  funext fun a => Fin.ext (by match a with | ⟨0, _⟩ => rfl)

/-! ## The doubled row -/

/-- Position l of the doubled row is entry l of the gathered row. -/
theorem doubled_lo (r : Fin 800000) (l : Fin 128) :
    val_main_v7 (F := Ideal) x0 x1 (ix2 r (lo l)) = val_main_v6 (F := Ideal) x0 x1 (ix2 r l) := by
  unfold val_main_v7
  exact concatenate_pair_apply_left (s₁ := S800000x128) (s₂ := S800000x128) 1 _ _ _ (ix2 r (lo l)) rfl (ix2 r l)
    (fun b => by match b with | ⟨0, _⟩ => rfl | ⟨1, _⟩ => rfl)

/-- Position 128 + l of the doubled row is entry l of the gathered row again. -/
theorem doubled_hi (r : Fin 800000) (l : Fin 128) :
    val_main_v7 (F := Ideal) x0 x1 (ix2 r (hi l)) = val_main_v6 (F := Ideal) x0 x1 (ix2 r l) := by
  unfold val_main_v7
  exact concatenate_pair_apply_right (s₁ := S800000x128) (s₂ := S800000x128) 1 _ _ _ (ix2 r (hi l)) rfl rfl (ix2 r l)
    (fun b hb => by match b with | ⟨0, _⟩ => rfl | ⟨1, _⟩ => exact absurd rfl hb)
    (by show l.val + 128 = 128 + l.val; omega)

/-! ## The result at (r, j) -/

/-- The reference's result at row r, column j: the perceptron's output on the gathered row r, with the first
    weight folded, when the gathered entries and the first weight's entries are real. -/
theorem result_at (hg : ∀ y, IsReal (val_main_v6 (F := Ideal) x0 x1 y)) (hW : ∀ y, IsReal (x2 y))
    (r : Fin 800000) (j : Fin 128) :
    val_main_v16 (F := Ideal) x0 x1 x2 x3 x4 x5 (ix2 r j)
      = outLayer (hiddenLayer (Ideal.ofBits .f32 0x00000000#32) (fun l => val_main_v6 (F := Ideal) x0 x1 (ix2 r l))
          (fun l k => x2 (ix2 (lo l) k) + x2 (ix2 (hi l) k)) (fun k => x3 (ix1 k)))
        (fun k j => x4 (ix2 k j)) (fun j => x5 (ix1 j)) j := by
  rw [val_main_v16_apply, val_main_v13_apply, val_main_v15_apply, val_main_v14_apply, bias_second]
  simp only [lhs_second, rhs_second, val_main_v12_apply, val_main_v11_apply, val_main_v8_apply, val_main_v10_apply,
    val_main_v9_apply, bias_first, val_main_call0_v0_apply, val_main_call0_cst_apply, lhs_first, rhs_first]
  simp only [Ideal.addf_def, Ideal.maximumf_def, Ideal.ofBits_def]
  unfold outLayer hiddenLayer
  refine congrArg (· + _) (Finset.sum_congr rfl fun k _ => ?_)
  rw [sum_doubled_row (fun l => val_main_v6 (F := Ideal) x0 x1 (ix2 r l))
    (fun l => val_main_v7 (F := Ideal) x0 x1 (ix2 r l)) (fun l => x2 (ix2 l k))
    (doubled_lo x0 x1 r) (doubled_hi x0 x1 r) (fun l => hg _) (fun l => hW _)]

end Cert.ReferenceIdeal.RefValue

end
-- ==== Proof.KernelPayload.lean ====
/-
  The kernel body's stored value, read at one entry of its block.

  The body loads a block of 3200 gathered rows, the folded first weight, the two biases and the second
  weight, and stores  max (rows · W + b₁) 0 · W₂ + b₂.  A change of float format is the identity on the
  extended reals, a matrix product into the zero accumulator is the plain sum over the contracted axis, and
  a bias of shape [128] viewed as [1, 128] and repeated over the rows reads its column's entry.  So the
  stored value at local row p, column j is the perceptron's output on row p of the block.
-/
import proofs.«175309_j64879775973998_1_alg».proof.Proof.Gen.KernelIdeal.Skeleton
import proofs.«175309_j64879775973998_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.TcCoe
open Idealize.ShloMosaic.ValueIdx Cert.MlpSpec

/-! ## The product's operand indices: rows of the left operand, columns of the right -/

theorem lhs_axis0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs_axis1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem rhs_axis0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem rhs_axis1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- A [3200, 128] by [128, 128] product into the zero accumulator, at (p, j): the sum over the 128 shared
    positions of row p of the left operand against column j of the right. -/
theorem matmul_at {φ₁ φ₂ : FTy} (lhs : FVec Ideal S3200x128 φ₁) (rhs : FVec Ideal S128x128 φ₂) (p : Fin 3200) (j : Fin 128) :
    matmul dot_S3200x128_S128x128_S3200x128_1_0_0_1_n_n none lhs rhs (constant S3200x128 .f32 0x00000000#32) (ix2 p j)
      = ∑ k : Fin 128, lhs (ix2 p k) * rhs (ix2 k j) := by
  show FloatOps.matmul dot_S3200x128_S128x128_S3200x128_1_0_0_1_n_n none lhs rhs (constant S3200x128 .f32 0x00000000#32) (ix2 p j) = _
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 p j) ((contrEquiv1 dot_S3200x128_S128x128_S3200x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S3200x128_S128x128_S3200x128_1_0_0_1_n_n.rhsIdx (ix2 p j) ((contrEquiv1 dot_S3200x128_S128x128_S3200x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- A bias of shape [128], viewed as one row and repeated over the block's rows, at (p, j): its entry j. -/
theorem bias_at (x : Vec Ideal S128 .f32) (p : Fin 3200) (j : Fin 128) :
    broadcastTo S3200x128 (shapeCast S1x128 x shapeCasts_S128_S1x128) broadcasts_S1x128_S3200x128 (ix2 p j) = x (ix1 j) := by
  rw [broadcastTo_1b_ab_apply, shapeCast_a_1a_apply]

/-- The body's stored value at local row p, column j: the perceptron's output at column j on row p of the
    loaded block x0, with first weight x1, biases x2 and x4, second weight x3. -/
theorem payload_at (x0 : Vec Ideal S3200x128 .f32) (x1 : Vec Ideal S128x128 .f32) (x2 : Vec Ideal S128 .f32)
    (x3 : Vec Ideal S128x128 .f32) (x4 : Vec Ideal S128 .f32) (p : Fin 3200) (j : Fin 128) :
    k0_pay1 (F := Ideal) x0 x1 x2 x3 x4 (ix2 p j)
      = outLayer (hiddenLayer (Ideal.ofBits .f32 0x00000000#32) (fun l => x0 (ix2 p l)) (fun l k => x1 (ix2 l k)) (fun k => x2 (ix1 k)))
          (fun k j => x3 (ix2 k j)) (fun j => x4 (ix1 j)) j := by
  unfold k0_pay1
  rw [shapeCast_self, shapeCast_self]
  simp only [addf_apply, matmul_at, truncf_apply, maximumf_apply, broadcast_apply, Ideal.ofBits_def]
  rw [bias_at x4 p j]
  unfold outLayer hiddenLayer
  refine congrArg (· + _) (Finset.sum_congr rfl fun k _ => ?_)
  rw [bias_at x2 p k]

/-- The stored value against the whole result array: if the loaded block's row p is row R of the gathered
    rows g, and the other loaded operands are the whole weights and biases, the stored value at (p, q) is entry
    (R, q) of the perceptron's result array. -/
theorem payload_eq_mlpArray (g : Vec Ideal S800000x128 .f32) (W : Vec Ideal S128x128 .f32) (b1 : Vec Ideal S128 .f32)
    (W2 : Vec Ideal S128x128 .f32) (b2 : Vec Ideal S128 .f32)
    (x0 : Vec Ideal S3200x128 .f32) (x1 : Vec Ideal S128x128 .f32) (x2 : Vec Ideal S128 .f32)
    (x3 : Vec Ideal S128x128 .f32) (x4 : Vec Ideal S128 .f32) (p : Fin 3200) (q : Fin 128) (R : Fin 800000)
    (h0 : ∀ l, x0 (ix2 p l) = g (ix2 R l)) (h1 : ∀ l k, x1 (ix2 l k) = W (ix2 l k)) (h2 : ∀ k, x2 (ix1 k) = b1 (ix1 k))
    (h3 : ∀ k j, x3 (ix2 k j) = W2 (ix2 k j)) (h4 : ∀ j, x4 (ix1 j) = b2 (ix1 j)) :
    k0_pay1 (F := Ideal) x0 x1 x2 x3 x4 (ix2 p q)
      = mlpArray (Ideal.ofBits .f32 0x00000000#32) g W b1 W2 b2 (ix2 R q) := by
  rw [payload_at]
  show _ = outLayer (hiddenLayer (Ideal.ofBits .f32 0x00000000#32) (fun l => g (ix2 R l)) (fun l k => W (ix2 l k)) (fun k => b1 (ix1 k)))
    (fun k j => W2 (ix2 k j)) (fun j => b2 (ix1 j)) q
  rw [show (fun l => x0 (ix2 p l)) = (fun l => g (ix2 R l)) from funext h0,
    show (fun l k => x1 (ix2 l k)) = (fun l k => W (ix2 l k)) from funext fun l => funext (h1 l),
    show (fun k => x2 (ix1 k)) = (fun k => b1 (ix1 k)) from funext h2,
    show (fun k j => x3 (ix2 k j)) = (fun k j => W2 (ix2 k j)) from funext fun k => funext (h3 k),
    show (fun j => x4 (ix1 j)) = (fun j => b2 (ix1 j)) from funext h4]

end Cert.KernelIdeal.Payload

end
-- ==== Proof.KernelValue.lean ====
/-
  The kernel's result array.

  The grid has 250 points; point t loads rows 3200·t … 3200·t + 3199 of the gathered rows, the whole folded
  first weight, both biases and the whole second weight, and writes back the perceptron's outputs for those
  rows.  The 250 output blocks tile the [800000, 128] result, so after the run the result array is the
  perceptron applied to every gathered row.  Before the call the host gathers the rows x[idx] and adds the
  two halves of the first weight; both are read back here as functions of the arguments.
-/
import proofs.«175309_j64879775973998_1_alg».proof.Proof.Gen.KernelIdeal.Value
import proofs.«175309_j64879775973998_1_alg».proof.Proof.KernelPayload
import proofs.«175309_j64879775973998_1_alg».proof.Proof.MlpSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.MlpSpec Cert.KernelIdeal.Payload

variable (m : (ℓ : Loc nD τ sig) → Buf (Elt Ideal) ℓ) (ρ : Dev nD → PrngReg)

/-! ## The arrays the call is launched on, at their literal types -/

/-- The gathered rows. -/
abbrev rowsArr (c : Dev nD) : Vec Ideal S800000x128 .f32 := V m c main_v6
/-- The folded first weight. -/
abbrev w1Arr (c : Dev nD) : Vec Ideal S128x128 .f32 := V m c main_v9
/-- The first bias. -/
abbrev b1Arr (c : Dev nD) : Vec Ideal S128 .f32 := V m c main_arg3
/-- The second weight. -/
abbrev w2Arr (c : Dev nD) : Vec Ideal S128x128 .f32 := V m c main_arg4
/-- The second bias. -/
abbrev b2Arr (c : Dev nD) : Vec Ideal S128 .f32 := V m c main_arg5

theorem hz : (![0, 0] : Fin 2 → Nat) = fun _ => 0 := funext fun a => by fin_cases a <;> rfl
theorem hz1 : (![0] : Fin 1 → Nat) = fun _ => 0 := funext fun a => by fin_cases a <;> rfl

/-! ## Which block each window holds at point t -/

/-- The rows window and the output window are at block t along the rows; every other window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every one of the 250 row blocks of the result is some point's. -/
theorem idx_onto : ∀ q : Fin 250, ∃ t : Fin cfg0.N, win0_5.index t (0 : Fin 2) = q.val ∧ win0_5.index t (1 : Fin 2) = 0 :=
  (by decide +kernel : ∀ q : Fin 250, ∃ t : Fin grid0.N, win0_5.index t (0 : Fin 2) = q.val ∧ win0_5.index t (1 : Fin 2) = 0)

/-! ## What point t writes back -/

/-- Point t writes back block t of the perceptron's result array on the launched arrays. -/
theorem flushed_eq (c : Dev nD) (t : Fin cfg0.N) :
    (dats m 0 c).flushed 5 t = ((cfg0.win 5).blk t).view.read (Elt Ideal)
      (mlpArray (Ideal.ofBits .f32 0x00000000#32) (rowsArr m c) (w1Arr m c) (b1Arr m c) (w2Arr m c) (b2Arr m c)) := by
  rw [Value.flushed5]
  unfold out0_5
  rw [View.canon_unit_zero hz]
  simp only [View.ld_unit_zero (S := S3200x128) hz, View.ld_unit_zero (S := S128x128) hz, View.ld_unit_zero (S := S128) hz1]
  funext y
  have hy : y = ix2 (n0 := 3200) (n1 := 128) (y 0) (y 1) := eq_ix2 (n0 := 3200) (n1 := 128) y
  obtain ⟨e00, e01, e10, e11, e20, e30, e31, e40, e50, e51⟩ := idx_facts t
  have ht : t.val < 250 := t.isLt
  have hp : (y 0).val < 3200 := (y 0).isLt
  have hq : (y 1).val < 128 := (y 1).isLt
  have hE : ((cfg0.win 5).blk t).view.emb y = ix2 (n0 := 800000) (n1 := 128) ⟨t.val * 3200 + (y 0).val, by omega⟩ (y 1) := by
    funext a; apply Fin.ext
    match a with
    | ⟨0, _⟩ => show win0_5.index t (0 : Fin 2) * 3200 + 1 * (y 0).val = t.val * 3200 + (y 0).val; omega
    | ⟨1, _⟩ => show win0_5.index t (1 : Fin 2) * 128 + 1 * (y 1).val = (y 1).val; omega
  show k0_pay1 (F := Ideal) (iblk m c 0 t) (iblk m c 1 t) (iblk m c 2 t) (iblk m c 3 t) (iblk m c 4 t) y
    = mlpArray (Ideal.ofBits .f32 0x00000000#32) (rowsArr m c) (w1Arr m c) (b1Arr m c) (w2Arr m c) (b2Arr m c) (((cfg0.win 5).blk t).view.emb y)
  rw [hE]
  refine (congrArg (k0_pay1 (F := Ideal) (iblk m c 0 t) (iblk m c 1 t) (iblk m c 2 t) (iblk m c 3 t) (iblk m c 4 t)) hy).trans ?_
  refine payload_eq_mlpArray (rowsArr m c) (w1Arr m c) (b1Arr m c) (w2Arr m c) (b2Arr m c)
    (iblk m c 0 t) (iblk m c 1 t) (iblk m c 2 t) (iblk m c 3 t) (iblk m c 4 t) (y 0) (y 1) _ ?_ ?_ ?_ ?_ ?_
  · intro l
    have hl : l.val < 128 := l.isLt
    refine congrArg (rowsArr m c) (funext fun a => Fin.ext ?_)
    match a with
    | ⟨0, _⟩ => show win0_0.index t (0 : Fin 2) * 3200 + 1 * (y 0).val = t.val * 3200 + (y 0).val; omega
    | ⟨1, _⟩ => show win0_0.index t (1 : Fin 2) * 128 + 1 * l.val = l.val; omega
  · intro l k
    refine congrArg (w1Arr m c) (funext fun a => Fin.ext ?_)
    match a with
    | ⟨0, _⟩ => show win0_1.index t (0 : Fin 2) * 128 + 1 * l.val = l.val; omega
    | ⟨1, _⟩ => show win0_1.index t (1 : Fin 2) * 128 + 1 * k.val = k.val; omega
  · intro k
    refine congrArg (b1Arr m c) (funext fun a => Fin.ext ?_)
    match a with
    | ⟨0, _⟩ => show win0_2.index t (0 : Fin 1) * 128 + 1 * k.val = k.val; omega
  · intro k j
    refine congrArg (w2Arr m c) (funext fun a => Fin.ext ?_)
    match a with
    | ⟨0, _⟩ => show win0_3.index t (0 : Fin 2) * 128 + 1 * k.val = k.val; omega
    | ⟨1, _⟩ => show win0_3.index t (1 : Fin 2) * 128 + 1 * j.val = j.val; omega
  · intro j
    refine congrArg (b2Arr m c) (funext fun a => Fin.ext ?_)
    match a with
    | ⟨0, _⟩ => show win0_4.index t (0 : Fin 1) * 128 + 1 * j.val = j.val; omega

/-! ## The blocks tile the result -/

/-- An index of the result is in point t's block iff each coordinate is in the block's range on its axis. -/
theorem mem_blk (t : Fin cfg0.N) (i : S800000x128.Idx) :
    i ∈ ((cfg0.win 5).blk t).view.set ↔ ∀ a : Fin 2, win0_5.index t a * S3200x128.size a ≤ (i a).val ∧ (i a).val < win0_5.index t a * S3200x128.size a + S3200x128.size a := by
  show i ∈ ((View.whole main_v10).slice (win0_5.rect t)).set ↔ _
  rw [View.set_slice_whole, Rect.mem_set_unit]
  exact Iff.rfl

/-- Row r of the result lies in the block of the point at position r / 3200. -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  obtain ⟨t, q0, q1⟩ := idx_onto ⟨(i 0).val / 3200, by omega⟩
  have q0' : win0_5.index t (0 : Fin 2) = (i 0).val / 3200 := q0
  refine ⟨t, flush0_5 t, ?_⟩
  rw [mem_blk]
  intro a
  match a with
  | ⟨0, _⟩ => show win0_5.index t (0 : Fin 2) * 3200 ≤ (i 0).val ∧ (i 0).val < win0_5.index t (0 : Fin 2) * 3200 + 3200; omega
  | ⟨1, _⟩ => show win0_5.index t (1 : Fin 2) * 128 ≤ (i 1).val ∧ (i 1).val < win0_5.index t (1 : Fin 2) * 128 + 128; omega

/-- After the run the result array is the perceptron's result on the launched arrays. -/
theorem final (c : Dev nD) :
    (dats m 0 c).arrAt 5 cfg0.N = mlpArray (Ideal.ofBits .f32 0x00000000#32) (rowsArr m c) (w1Arr m c) (b1Arr m c) (w2Arr m c) (b2Arr m c) :=
  (dats m 0 c).arrAt_eq_of_cover 5 _ (fun t _ => flushed_eq m c t) cover

/-! ## The two arrays the host computes before the call -/

/-- The rows the call is launched on are the host's gather of the node features at the normalised indices
    (a negative index moved up by the table's 50000 rows). -/
theorem rowsArr_eq (c : Dev nD) :
    rowsArr m c = Host.gather gather_S50000x128_S800000x1_S800000x128_1_0_n_n_0_1_1128 (m ((c : Thread nD τ).loc main_arg0)) (broadcastInDim S800000x1 ![0] bcast_S800000_S800000x1_0 (select (cmpi .slt (m ((c : Thread nD τ).loc main_arg1)) (broadcastInDim S800000 ![] bcast_S_S800000 (constantI S_ 32 0#32))) (addi (m ((c : Thread nD τ).loc main_arg1)) (broadcastInDim S800000 ![] bcast_S_S800000 (constantI S_ 32 50000#32))) (m ((c : Thread nD τ).loc main_arg1)))) := by
  show (V m c main_v6 : S800000x128.Idx → EReal) = _
  dsimp only [Gen.V, Gen.hostOps0]; after_results

/-- Each gathered entry is an entry of the node features: real when they all are. -/
theorem rowsArr_real (c : Dev nD) (hx : ∀ y, IsReal (m ((c : Thread nD τ).loc main_arg0) y)) (y : S800000x128.Idx) :
    IsReal (rowsArr m c y) := by
  rw [rowsArr_eq]
  exact hx _

/-- The first weight the call is launched on is the host's fold of the [256, 128] argument. -/
theorem w1Arr_eq (c : Dev nD) : w1Arr m c = foldedWeight (m ((c : Thread nD τ).loc main_arg2)) := by
  have e : @Eq (S128x128.Idx → EReal) (V m c main_v9)
      (addf (F := Ideal) (φ := .f32) (extractStridedSlice S128x128 ![0, 0] (m ((c : Thread nD τ).loc main_arg2)) slices_S256x128_S128x128_0_0)
          (extractStridedSlice S128x128 ![128, 0] (m ((c : Thread nD τ).loc main_arg2)) slices_S256x128_S128x128_128_0)) := by
    dsimp only [Gen.V, Gen.hostOps0]; after_results
  refine Eq.trans e ?_
  funext i
  obtain ⟨l, k, rfl⟩ : ∃ (l k : Fin 128), i = ix2 l k := ⟨i 0, i 1, eq_ix2 i⟩
  refine (addf_apply _ _ _).trans ?_
  rw [slice2_axis0_apply 0 _ _ l k (lo l) (Nat.zero_add _).symm, slice2_axis0_apply 128 _ _ l k (hi l) rfl]
  rfl

/-! ## The run -/

/-- Every weakly fair execution of the idealized kernel program ends with the result array at the
    perceptron's result on the gathered rows, the folded first weight and the other arguments, and with
    the arguments unchanged. -/
theorem run : θ_run defs (onTc (τ := τ) (main (F := Ideal))) ⟨m, fun _ => 0, ρ⟩ fun r => ∀ c : Dev nD,
      r.2.mem ((c : Thread nD τ).loc main_v10)
        = mlpArray (Ideal.ofBits .f32 0x00000000#32) (rowsArr m c) (foldedWeight (m ((c : Thread nD τ).loc main_arg2)))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by
      rw [w1Arr_eq m c, show b1Arr m c = m ((c : Thread nD τ).loc main_arg3) from V_main_arg3 m c,
        show w2Arr m c = m ((c : Thread nD τ).loc main_arg4) from V_main_arg4 m c,
        show b2Arr m c = m ((c : Thread nD τ).loc main_arg5) from V_main_arg5 m c])), (h c).2⟩)
    (Value.run_blocks m ρ)

end Cert.KernelIdeal.KValue

end
-- ==== Proof.FiniteInputs.lean ====
/-
  What the precondition gives the value proof: every entry of the node features and of the first weight is a
  real number.

  The precondition is the conjunction, over the five float arguments, of "every |entry| is below +∞".  Each
  conjunct is an and-reduction of the entrywise comparison down to one bit; the bit being 1, every entry's
  comparison is 1, so  max x (-x) < ⊤,  which excludes both infinities.  The distributive law that folds the
  first weight needs exactly this of the gathered features and of the first weight.
-/
import proofs.«175309_j64879775973998_1_alg».proof.Pre_finite_inputs
import proofs.«175309_j64879775973998_1_alg».proof.Proof.Gen.Pre_finite_inputs
import proofs.«175309_j64879775973998_1_alg».proof.Proof.MlpSpec
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Cert.Pre_finite_inputs.Gen Idealize.ShloMosaic Idealize.ShloMosaic.ValueIdx Cert.MlpSpec

instance : Subsingleton S_.Idx := ⟨fun a b => funext fun d => d.elim0⟩

/-- An extended real whose absolute value compares below the word of +∞ is a real number. -/
theorem isReal_of_abs_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  obtain ⟨h1, h2⟩ := max_lt_iff.1 hlt
  have hb : x ≠ ⊥ := fun e => by rw [e, EReal.neg_bot] at h2; exact lt_irrefl _ h2
  exact ⟨x.toReal, (EReal.coe_toReal h1.ne hb).symm⟩

/-- One conjunct of the precondition, read back: if the and-reduction of "|x| < +∞" over a whole array is 1,
    every entry of the array is real. -/
theorem isReal_of_all {s : Shape} {axes : List (Fin s.rank)} (x : FVec Ideal s .f32)
    (hb : S_.BroadcastsInDim s (![] : Fin 0 → Fin s.rank)) (init : IVec S_ 1) (hr : s.ReducesTo axes S_) (hu : 0 < S_.numel)
    (h : Host.reduce IntOp.andi (cmpf .olt (Host.absf x) (broadcastInDim s ![] hb (constant (F := Ideal) S_ .f32 0x7F800000#32)))
      init hr hu ix0 = 1#1) (y : s.Idx) : IsReal (x y) := by
  have hy := Host.reduce_andi_all _ _ _ _ ix0 h y
  have hc : broadcastInDim s ![] hb (constant (F := Ideal) S_ .f32 0x7F800000#32) y = Ideal.ofBits .f32 0x7F800000#32 :=
    broadcastInDim_apply _ _ _ y ix0 (fun a => a.elim0)
  have hy' : Ideal.cmp .olt (max (x y) (-(x y)))
      (broadcastInDim s ![] hb (constant (F := Ideal) S_ .f32 0x7F800000#32) y) = 1#1 := hy
  rw [hc] at hy'
  exact isReal_of_abs_lt _ hy'

/-- The precondition at the ideal instance makes every entry of the first argument (the node features) and
    of the third (the first weight) real. -/
theorem real_of_pre (a0 : FVec Ideal S50000x128 .f32) (a1 : IVec S800000 32) (a2 : FVec Ideal S256x128 .f32)
    (a3 : FVec Ideal S128 .f32) (a4 : FVec Ideal S128x128 .f32) (a5 : FVec Ideal S128 .f32)
    (h : fn (F := Ideal) a0 a1 a2 a3 a4 a5 = fun _ => 1#1) : (∀ y, IsReal (a0 y)) ∧ (∀ y, IsReal (a2 y)) := by
  have h0 := congrFun h ix0
  dsimp only [fn, fn_part1] at h0
  have e1 := IntOp.andi_eq_one.1 (h0 : IntOp.andi _ _ = 1#1)
  have e2 := IntOp.andi_eq_one.1 (e1.1 : IntOp.andi _ _ = 1#1)
  have e3 := IntOp.andi_eq_one.1 (e2.1 : IntOp.andi _ _ = 1#1)
  have e4 := IntOp.andi_eq_one.1 (e3.1 : IntOp.andi _ _ = 1#1)
  exact ⟨fun y => isReal_of_all a0 _ _ _ _ e4.1 y, fun y => isReal_of_all a2 _ _ _ _ e4.2 y⟩

end Cert.Pre_finite_inputs.Finite

end
-- ==== Proof.lean ====
/- The proof of Cert.Claim for the neighbourhood perceptron.

   Both programs gather the rows x[idx] (a negative index first moved up by 50000) and send each gathered row g
   through  y = max (g · W + b₁) 0 · W₂ + b₂.  The kernel folds the first weight on the host, W = W₁[0:128] +
   W₁[128:256], and runs the two products block by block over 250 blocks of 3200 rows; the reference doubles
   the row to [g, g] and multiplies by the whole [256, 128] weight.  At the ideal instance format changes are the
   identity and both matrix products are plain sums, so the two results differ only in the first layer, where
       ∑_{l < 256} [g, g]_l · W₁[l, k]  =  ∑_{l < 128} g_l · (W₁[l, k] + W₁[128 + l, k])
   by splitting the range and distributivity.  Distributivity on the extended reals needs real factors: this
   is where the precondition (every float input finite) is used, for the node features, of which every
   gathered entry is one, and for the first weight.
   The three frames are the generated ones (the reference's is its generated run with the result dropped); the
   idealization rewrote nothing, so the preservation claim is trivial. -/
import proofs.«175309_j64879775973998_1_alg».proof.Defs
import proofs.«175309_j64879775973998_1_alg».proof.Proof.Gen.Kernel
import proofs.«175309_j64879775973998_1_alg».proof.Proof.Gen.Kernel.Skeleton
import proofs.«175309_j64879775973998_1_alg».proof.Proof.Gen.Kernel.Launch
import proofs.«175309_j64879775973998_1_alg».proof.Proof.Gen.Kernel.Points
import proofs.«175309_j64879775973998_1_alg».proof.Proof.Gen.Kernel.Frame
import proofs.«175309_j64879775973998_1_alg».proof.Proof.Gen.KernelIdeal
import proofs.«175309_j64879775973998_1_alg».proof.Proof.Gen.KernelIdeal.Skeleton
import proofs.«175309_j64879775973998_1_alg».proof.Proof.Gen.KernelIdeal.Launch
import proofs.«175309_j64879775973998_1_alg».proof.Proof.Gen.KernelIdeal.Points
import proofs.«175309_j64879775973998_1_alg».proof.Proof.Gen.KernelIdeal.Frame
import proofs.«175309_j64879775973998_1_alg».proof.Proof.Gen.ReferenceIdeal
import proofs.«175309_j64879775973998_1_alg».proof.Proof.Gen.Pre_finite_inputs
import proofs.«175309_j64879775973998_1_alg».proof.Proof.Gen.KernelIdeal.Value
import proofs.«175309_j64879775973998_1_alg».proof.Proof.Gen.ReferenceIdeal.Run
import proofs.«175309_j64879775973998_1_alg».proof.Proof.Gen.ReferenceIdeal.Read
import proofs.«175309_j64879775973998_1_alg».proof.Proof.MlpSpec
import proofs.«175309_j64879775973998_1_alg».proof.Proof.RefValue
import proofs.«175309_j64879775973998_1_alg».proof.Proof.KernelPayload
import proofs.«175309_j64879775973998_1_alg».proof.Proof.KernelValue
import proofs.«175309_j64879775973998_1_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx Cert.MlpSpec

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every float argument finite, both idealized programs end
    with the perceptron's result on the gathered rows and the folded first weight. -/
theorem algebraic : Cert.algebraic_KernelIdeal_ReferenceIdeal := by
  intro m ρ m' ρ' hpre hagree
  refine ⟨fun c => mlpArray (Ideal.ofBits .f32 0x00000000#32) (Cert.KernelIdeal.KValue.rowsArr m c)
      (foldedWeight (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW⟩ := Cert.Pre_finite_inputs.Finite.real_of_pre _ _ _ _ _ _ (hpre c)
  rw [(hagree c).1, (hagree c).2.1, (hagree c).2.2.1, (hagree c).2.2.2.1, (hagree c).2.2.2.2.1, (hagree c).2.2.2.2.2,
    Cert.ReferenceIdeal.Read.val_main_v16_eq]
  have hg : ∀ y, IsReal (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) y) :=
    fun y => hx _
  funext i
  obtain ⟨r, j, rfl⟩ : ∃ (r : Fin 800000) (j : Fin 128), i = ix2 r j := ⟨i 0, i 1, eq_ix2 i⟩
  rw [Cert.ReferenceIdeal.RefValue.result_at _ _ _ _ _ _ hg hW r j]
  beta_reduce
  rw [Cert.KernelIdeal.KValue.rowsArr_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
